-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x32 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg5 main_v13 main_v16
-- ==== Kernel.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S1601536x64 : Shape := ⟨2, ![1601536, 64]⟩
abbrev S1x64 : Shape := ⟨2, ![1, 64]⟩
abbrev S1x1 : Shape := ⟨2, ![1, 1]⟩
abbrev S1601536 : Shape := ⟨1, ![1601536]⟩
abbrev S4096x64 : Shape := ⟨2, ![4096, 64]⟩
abbrev S4096 : Shape := ⟨1, ![4096]⟩
abbrev S4096x32 : Shape := ⟨2, ![4096, 32]⟩
abbrev S4096x128 : Shape := ⟨2, ![4096, 128]⟩
abbrev S4096x1 : Shape := ⟨2, ![4096, 1]⟩

abbrev nBuf : Space → Nat
  | .hbm => 54
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S1600000x64, .f32⟩
  | .hbm, ⟨45, _⟩ => ⟨S_, .i32⟩
  | .hbm, ⟨46, _⟩ => ⟨S_, .f32⟩
  | .hbm, ⟨47, _⟩ => ⟨S1601536x64, .f32⟩
  | .hbm, ⟨48, _⟩ => ⟨S128x64, .bf16⟩
  | .hbm, ⟨49, _⟩ => ⟨S64x1, .bf16⟩
  | .hbm, ⟨50, _⟩ => ⟨S1x64, .f32⟩
  | .hbm, ⟨51, _⟩ => ⟨S1x1, .f32⟩
  | .hbm, ⟨52, _⟩ => ⟨S1601536, .f32⟩
  | .hbm, ⟨53, _⟩ => ⟨S1600000, .f32⟩
  | .local _ .vmem, ⟨0, _⟩ => ⟨S4096x64, .f32⟩
  | .local _ .vmem, ⟨1, _⟩ => ⟨S4096x64, .f32⟩
  | .local _ .vmem, ⟨2, _⟩ => ⟨S128x64, .bf16⟩
  | .local _ .vmem, ⟨3, _⟩ => ⟨S1x64, .f32⟩
  | .local _ .vmem, ⟨4, _⟩ => ⟨S64x1, .bf16⟩
  | .local _ .vmem, ⟨5, _⟩ => ⟨S1x1, .f32⟩
  | .local _ .vmem, ⟨6, _⟩ => ⟨S4096, .f32⟩
  | .local _ .vmem, ⟨7, _⟩ => ⟨S4096, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v5 : Ref sig .tc := ⟨.hbm, 25, rfl⟩
abbrev main_c_3 : Ref sig .tc := ⟨.hbm, 26, rfl⟩
abbrev main_v6 : Ref sig .tc := ⟨.hbm, 27, rfl⟩
abbrev main_v7 : Ref sig .tc := ⟨.hbm, 28, rfl⟩
abbrev main_c_4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_call2_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  pads_S1600000x64_S1601536x64_015360_000 : S1600000x64.Pads (![0, 0] : Fin 2 → Nat) ![1536, 0] ![0, 0] S1601536x64
  h_S_ : 0 < S_.numel
  bitsLt_bf16_f32 : FTy.bits .bf16 < FTy.bits .f32
  shapeCasts_S64_S1x64 : S64.ShapeCasts S1x64
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S4096x64_o0_0_S4096x32 : S4096x64.Slices ![0, 0] S4096x32
  slices_S4096x64_o0_32_S4096x32 : S4096x64.Slices ![0, 32] S4096x32
  concatenates_S4096x32_S4096x32_S4096x32_S4096x32_S4096x128_d1 : Shape.Concatenates [S4096x32, S4096x32, S4096x32, S4096x32] S4096x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  slices_S1601536_S1600000_0 : S1601536.Slices ![0] S1600000
  gather_S100000x32_S1600000x1_S1600000x32_1_0_n_n_0_1_132_wf : GatherDims.WF S100000x32 S1600000x1 S1600000x32 [1] [0] [] [0] [] 1 ![1, 32]
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1601536x64.size a
  hwx0_0 : ∀ i : grid0.Coords, EltTy.bits .f32 = 32 ∨ (Rect.block (s := S1601536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .bf16 = 32 ∨ (Rect.block (s := S64x1) S64x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S1601536.size a
  hwx0_5 : ∀ i : grid0.Coords, EltTy.bits .f32 = 32 ∨ (Rect.block (s := S1601536) S4096.size (cc0_transform_5 i) (hinb0_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v21) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x128 : Shape := ⟨2, ![1600000, 128]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S1600000x32, .f32⟩
  | .hbm, ⟨29, _⟩ => ⟨S1600000x32, .f32⟩
  | .hbm, ⟨30, _⟩ => ⟨S1600000x32, .f32⟩
  | .hbm, ⟨31, _⟩ => ⟨S1600000x128, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S1600000x64, .f32⟩
  | .hbm, ⟨38, _⟩ => ⟨S1600000x64, .f32⟩
  | .hbm, ⟨39, _⟩ => ⟨S1600000x1, .f32⟩
  | .hbm, ⟨40, _⟩ => ⟨S1x1, .f32⟩
  | .hbm, ⟨41, _⟩ => ⟨S1600000x1, .f32⟩
  | .hbm, ⟨42, _⟩ => ⟨S1600000x1, .f32⟩
  | .hbm, ⟨43, _⟩ => ⟨S1600000x1, .f32⟩
  | .hbm, ⟨44, _⟩ => ⟨S1600000x1, .f32⟩
  | .hbm, ⟨45, _⟩ => ⟨S_, .f32⟩
  | .hbm, ⟨46, _⟩ => ⟨S1600000x1, .f32⟩
  | .hbm, ⟨47, _⟩ => ⟨S1600000x1, .f32⟩
  | .hbm, ⟨48, _⟩ => ⟨S_, .f32⟩
  | .hbm, ⟨49, _⟩ => ⟨S1600000x1, .f32⟩
  | .hbm, ⟨50, _⟩ => ⟨S1600000x1, .f32⟩
  | .hbm, ⟨51, _⟩ => ⟨S1600000, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1600000, .f32⟩
  | .hbm, ⟨56, _⟩ => ⟨S1600000, .f32⟩
  | .hbm, ⟨57, _⟩ => ⟨S_, .f32⟩
  | .hbm, ⟨58, _⟩ => ⟨S1600000, .f32⟩
  | .hbm, ⟨59, _⟩ => ⟨S1600000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x32_S1600000x128_d1 : Shape.Concatenates [S1600000x32, S1600000x32, S1600000x32, S1600000x32] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  gather_S100000x32_S1600000x1_S1600000x32_1_0_n_n_0_1_132_wf : GatherDims.WF S100000x32 S1600000x1 S1600000x32 [1] [0] [] [0] [] 1 ![1, 32]
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.Spec.lean ====
/-
  The edge gate, edge by edge.

  For an edge `e` with gathered feature rows `mu e`, `mv e` (32 entries each) the network forms the 128 features
  `[mu, mv, |mu - mv|, mu * mv]`, a hidden layer `h n = max (Σ_j feat j * W1 j n + b1 n) 0` of 64 units, the score
  `s = Σ_n h n * W2 n + b2`, and returns `min 1 (max 0 (1 / (1 + exp (-s))))`. Everything is over the extended
  reals; the two clip bounds and the hidden layer's zero are kept as the words both programs print.
-/
import Idealize.ShloMosaic.PureOps.Ideal
import Idealize.ShloMosaic.PureOps.Ideal.Laws
import Idealize.ShloMosaic.Lib.ValueIdx

noncomputable section

open scoped BigOperators

namespace EdgeGate

open Idealize.ShloMosaic Idealize.ShloMosaic.ValueIdx

/-- Feature `j` of an edge: the four blocks of 32 laid side by side. -/
def feat (mu mv : Fin 32 → EReal) (j : Fin 128) : EReal :=
  if h0 : j.val < 32 then mu ⟨j.val, h0⟩
  else if h1 : j.val < 64 then mv ⟨j.val - 32, by omega⟩
  else if h2 : j.val < 96 then
    max (mu ⟨j.val - 64, by omega⟩ - mv ⟨j.val - 64, by omega⟩) (-(mu ⟨j.val - 64, by omega⟩ - mv ⟨j.val - 64, by omega⟩))
  else mu ⟨j.val - 96, by omega⟩ * mv ⟨j.val - 96, by omega⟩

/-- Hidden unit `n`: the rectified affine form of the features. -/
def hidden (ft : Fin 128 → EReal) (W1 : Fin 128 → Fin 64 → EReal) (b1 : Fin 64 → EReal) (n : Fin 64) : EReal :=
  max ((∑ j : Fin 128, ft j * W1 j n) + b1 n) (Ideal.ofBits .f32 0x00000000#32)

/-- The gate of one edge: the logistic of the score, clipped to the unit interval. -/
def gate (ft : Fin 128 → EReal) (W1 : Fin 128 → Fin 64 → EReal) (b1 : Fin 64 → EReal) (W2 : Fin 64 → EReal) (b2 : EReal) : EReal :=
  min (Ideal.ofBits .f32 0x3F800000#32)
    (max (Ideal.ofBits .f32 0x00000000#32) (Ideal.logistic ((∑ n : Fin 64, hidden ft W1 b1 n * W2 n) + b2)))

/-- The gates of all `E` edges, from the two gathered feature matrices and the weights as arrays. -/
def gates {E : Nat} (mu mv : (⟨2, ![E, 32]⟩ : Shape).Idx → EReal) (W1 : (⟨2, ![128, 64]⟩ : Shape).Idx → EReal)
    (b1 : (⟨1, ![64]⟩ : Shape).Idx → EReal) (W2 : (⟨2, ![64, 1]⟩ : Shape).Idx → EReal) (b2 : (⟨1, ![1]⟩ : Shape).Idx → EReal) :
    (⟨1, ![E]⟩ : Shape).Idx → EReal :=
  fun i => gate (feat (fun k => mu (ix2 (i 0) k)) (fun k => mv (ix2 (i 0) k))) (fun j n => W1 (ix2 j n)) (fun n => b1 (ix1 n))
    (fun n => W2 (ix2 n 0)) (b2 (ix1 0))

/-- The word `1.0` reads the extended real one. -/
theorem ofBits_one_f32 : Ideal.ofBits .f32 0x3F800000#32 = 1 := IdealRules.sign_bit.ideal_onePat .f32

/-- The logistic written out with the printed `1.0`s: the host's expansion is the kernel's one operation. -/
theorem logistic_expanded (s : EReal) :
    Ideal.div (Ideal.ofBits .f32 0x3F800000#32) (Ideal.ofBits .f32 0x3F800000#32 + Ideal.exp (-s)) = Ideal.logistic s := by
  rw [ofBits_one_f32]; rfl

end EdgeGate

end
-- ==== Proof.LibConcat4.lean ====
/-
  Four matrices of 32 columns laid side by side into one of 128 columns, read at an entry: entry `(e, j)` of the
  result is entry `(e, j mod 32)` of piece `j / 32`. Stated for any number of rows and any element type, with the
  piece chosen by comparing the column with 32, 64 and 96.
-/
import Idealize.ShloMosaic.Lib.Pipeline.Value
import Idealize.ShloMosaic.Lib.ValueIdx

namespace Concat4

open Idealize.ShloMosaic Idealize.ShloMosaic.ValueIdx

variable {α : Type} {N : Nat}

/-- The joined matrix at `(e, j)`: the piece whose 32 columns hold column `j`, at that column less the widths before it. -/
theorem concat4_apply (a b c d : (⟨2, ![N, 32]⟩ : Shape).Idx → α)
    (h : Shape.Concatenates [(⟨2, ![N, 32]⟩ : Shape), ⟨2, ![N, 32]⟩, ⟨2, ![N, 32]⟩, ⟨2, ![N, 32]⟩] ⟨2, ![N, 128]⟩ 1)
    (e : Fin N) (j : Fin 128) :
    concatenate (⟨2, ![N, 128]⟩ : Shape) 1 [⟨⟨2, ![N, 32]⟩, a⟩, ⟨⟨2, ![N, 32]⟩, b⟩, ⟨⟨2, ![N, 32]⟩, c⟩, ⟨⟨2, ![N, 32]⟩, d⟩] h (ix2 e j)
      = if h0 : j.val < 32 then a (ix2 e ⟨j.val, h0⟩)
        else if h1 : j.val < 64 then b (ix2 e ⟨j.val - 32, by omega⟩)
        else if h2 : j.val < 96 then c (ix2 e ⟨j.val - 64, by omega⟩)
        else d (ix2 e ⟨j.val - 96, by have := j.isLt; omega⟩) := by
  have hj := j.isLt
  let xs : List ((s : Shape) × (s.Idx → α)) := [⟨⟨2, ![N, 32]⟩, a⟩, ⟨⟨2, ![N, 32]⟩, b⟩, ⟨⟨2, ![N, 32]⟩, c⟩, ⟨⟨2, ![N, 32]⟩, d⟩]
  have l0 : 0 < xs.length := by simp [xs]
  have l1 : 1 < xs.length := by simp [xs]
  have l2 : 2 < xs.length := by simp [xs]
  have l3 : 3 < xs.length := by simp [xs]
  have off : ∀ (q : Fin 32) (bb : Fin (⟨2, ![N, 32]⟩ : Shape).rank), bb.cast (rfl : (⟨2, ![N, 32]⟩ : Shape).rank = (⟨2, ![N, 128]⟩ : Shape).rank) ≠ (1 : Fin 2) →
      ((ix2 e q : (⟨2, ![N, 32]⟩ : Shape).Idx) bb).val = ((ix2 e j : (⟨2, ![N, 128]⟩ : Shape).Idx) (bb.cast rfl)).val := by
    intro q bb hb
    match bb with
    | ⟨0, _⟩ => rfl
    | ⟨1, _⟩ => exact absurd rfl hb
  split
  · rename_i h0
    exact concatenate_apply_piece 1 xs h (ix2 e j) 0 l0 ⟨2, ![N, 32]⟩ a rfl rfl 0 rfl (ix2 e ⟨j.val, h0⟩) (off _)
      (by show 0 + j.val = j.val; omega)
  · rename_i h0
    split
    · rename_i h1
      exact concatenate_apply_piece 1 xs h (ix2 e j) 1 l1 ⟨2, ![N, 32]⟩ b rfl rfl 32 rfl (ix2 e ⟨j.val - 32, by omega⟩) (off _)
        (by show 32 + (j.val - 32) = j.val; omega)
    · rename_i h1
      split
      · rename_i h2
        exact concatenate_apply_piece 1 xs h (ix2 e j) 2 l2 ⟨2, ![N, 32]⟩ c rfl rfl 64 rfl (ix2 e ⟨j.val - 64, by omega⟩) (off _)
          (by show 64 + (j.val - 64) = j.val; omega)
      · rename_i h2
        exact concatenate_apply_piece 1 xs h (ix2 e j) 3 l3 ⟨2, ![N, 32]⟩ d rfl rfl 96 rfl (ix2 e ⟨j.val - 96, by omega⟩) (off _)
          (by show 96 + (j.val - 96) = j.val; omega)

end Concat4
-- ==== Proof.RefValue.lean ====
/-
  The reference's result, read edge by edge: entry `e` of its last stage is the gate of the two rows the gathers
  put at `e`. The stages after the gathers are read one at a time; the joined feature matrix is read piece by piece.
-/
import proofs.«418235_j66683662238131_3_alg».proof.Proof.Gen.ReferenceIdeal.Read
import proofs.«418235_j66683662238131_3_alg».proof.Proof.Spec
import proofs.«418235_j66683662238131_3_alg».proof.Proof.LibConcat4

noncomputable section

open scoped BigOperators

namespace Cert.ReferenceIdeal.RefValue

open Cert.ReferenceIdeal Cert.ReferenceIdeal.Gen Cert.ReferenceIdeal.Read Idealize.ShloMosaic Idealize.ShloMosaic.ValueIdx EdgeGate

variable (x0 : (⟨S100000x32, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x1, .f32⟩ : BufTy).Contents (Elt Ideal)) (x5 : (⟨S1, .f32⟩ : BufTy).Contents (Elt Ideal))

/-- The joined feature matrix at `(e, j)` is feature `j` of the two gathered rows of edge `e`. -/
theorem feats_apply (e : Fin 1600000) (j : Fin 128) :
    val_main_v21 (F := Ideal) x0 x1 (ix2 e j)
      = feat (fun k => val_main_v10 (F := Ideal) x0 x1 (ix2 e k)) (fun k => val_main_v17 (F := Ideal) x0 x1 (ix2 e k)) j := by
  unfold val_main_v21
  rw [Concat4.concat4_apply]
  unfold feat
  rfl

/-! ## The composed index functions of the later stages, at an edge -/

theorem l27 (e : Fin 1600000) (n : Fin 64) : lidx_main_v27 (idx_main_v37 (ix1 e)) n = ix2 e n :=
  funext fun a => Fin.ext (by
    match a with
    | ⟨0, _⟩ => exact Nat.div_one _
    | ⟨1, _⟩ => rfl)
theorem r27 (e : Fin 1600000) (n : Fin 64) : ridx_main_v27 (idx_main_v37 (ix1 e)) n = ix2 n (0 : Fin 1) :=
  funext fun a => Fin.ext (by
    match a with
    | ⟨0, _⟩ => rfl
    | ⟨1, _⟩ => rfl)
theorem l22 (e : Fin 1600000) (n : Fin 64) (j : Fin 128) : lidx_main_v22 (ix2 e n) j = ix2 e j :=
  funext fun a => Fin.ext (by
    match a with
    | ⟨0, _⟩ => rfl
    | ⟨1, _⟩ => rfl)
theorem r22 (e : Fin 1600000) (n : Fin 64) (j : Fin 128) : ridx_main_v22 (ix2 e n) j = ix2 j n :=
  funext fun a => Fin.ext (by
    match a with
    | ⟨0, _⟩ => rfl
    | ⟨1, _⟩ => rfl)
theorem i24 (e : Fin 1600000) (n : Fin 64) : idx_main_v23 (idx_main_v24 (ix2 e n)) = ix1 n :=
  funext fun a => Fin.ext (by
    match a with
    | ⟨0, _⟩ => rfl)
theorem i29 (i : S1600000x1.Idx) : idx_main_v28 (idx_main_v29 i) = ix1 (0 : Fin 1) :=
  funext fun a => Fin.ext (by
    match a with
    | ⟨0, _⟩ => rfl)

/-! ## The result -/

/-- The reference's last stage is the gates of the gathered rows: the stages read outermost first, the two products
    as sums, the logistic's expansion folded back. -/
theorem ref_eq :
    val_main_v38 (F := Ideal) x0 x1 x2 x3 x4 x5
      = gates (val_main_v10 (F := Ideal) x0 x1) (val_main_v17 (F := Ideal) x0 x1) x2 x3 x4 x5 := by
  funext i
  obtain ⟨e, rfl⟩ : ∃ e : Fin 1600000, i = ix1 e := ⟨i 0, eq_ix1 i⟩
  rw [val_main_v38_apply, val_main_call1_v4_apply, val_main_call1_v3_apply, val_main_cst_5_apply, val_main_call1_v2_apply,
    val_main_call1_v1_apply, val_main_call1_v0_apply, val_main_cst_4_apply, val_main_v37_apply, val_main_v36_apply,
    val_main_v35_apply, val_main_cst_3_apply, val_main_v34_apply, val_main_v33_apply, val_main_cst_apply, val_main_v32_apply,
    val_main_v31_apply, val_main_v30_apply, val_main_v27_apply, val_main_v29_apply, val_main_v28_apply]
  simp only [l27, r27, val_main_v26_apply, val_main_v25_apply, val_main_v22_apply, val_main_v24_apply, val_main_v23_apply,
    val_main_call0_v0_apply, val_main_call0_cst_apply, l22, r22, i24, i29, feats_apply]
  unfold gates gate EdgeGate.hidden
  simp only [Ideal.ofBits_def, Ideal.minimumf_def, Ideal.maximumf_def, Ideal.hostDivf_def, Ideal.addf_def, Ideal.hostUnary_exp_def,
    Ideal.hostNegf_def, Ideal.negf_def, logistic_expanded]

end Cert.ReferenceIdeal.RefValue

end
-- ==== Proof.LibMatmul2.lean ====
/-
  The plain product of two matrices, `[N, K] · [K, M] → [N, M]` (contract the left operand's columns with the right
  operand's rows, no batch axes), read at an entry over the extended reals: a product into a zero accumulator, and the
  host's product, are both the sum over the contracted axis, `Σ_k l (i, k) * r (k, j)`.
-/
import Idealize.ShloMosaic.PureOps.Ideal.Laws
import Idealize.ShloMosaic.Lib.ValueIdx

noncomputable section

open scoped BigOperators

namespace Matmul2

open Idealize.ShloMosaic Idealize.ShloMosaic.ValueIdx

/-- The dimension numbers of the plain product, with their well-formedness as decided on a program's literal shapes. -/
abbrev dims (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

variable {N K M : Nat} (wf : DotDims.WF ⟨2, ![N, K]⟩ ⟨2, ![K, M]⟩ ⟨2, ![N, M]⟩ [1] [0] [0] [1] [] [])

/-- The left operand is read on the result's row … -/
theorem lhs_row (i : (⟨2, ![N, M]⟩ : Shape).Idx) (q : (dims N K M wf).contr.Idx) :
    ((dims N K M wf).lhsIdx i q 0).val = (i 0).val := by
  unfold DotDims.lhsIdx
  rw [dif_neg (show ¬(0 : Fin (⟨2, ![N, K]⟩ : Shape).rank) ∈ (dims N K M wf).lhsBatch from List.not_mem_nil),
    dif_pos (show (0 : Fin (⟨2, ![N, K]⟩ : Shape).rank) ∈ (dims N K M wf).lhsNonContracting from List.mem_singleton.mpr rfl)]
  rfl
/-- … at the contracted column; -/
theorem lhs_col (i : (⟨2, ![N, M]⟩ : Shape).Idx) (q : (dims N K M wf).contr.Idx) :
    ((dims N K M wf).lhsIdx i q 1).val = (q ⟨0, Nat.one_pos⟩).val :=
  (dims N K M wf).lhsIdx_val_of_single rfl i q
/-- the right operand at the contracted row … -/
theorem rhs_row (i : (⟨2, ![N, M]⟩ : Shape).Idx) (q : (dims N K M wf).contr.Idx) :
    ((dims N K M wf).rhsIdx i q 0).val = (q ⟨0, Nat.one_pos⟩).val :=
  (dims N K M wf).rhsIdx_val_of_single rfl i q
/-- … on the result's column. -/
theorem rhs_col (i : (⟨2, ![N, M]⟩ : Shape).Idx) (q : (dims N K M wf).contr.Idx) :
    ((dims N K M wf).rhsIdx i q 1).val = (i 1).val := by
  unfold DotDims.rhsIdx
  rw [dif_neg (show ¬(1 : Fin (⟨2, ![K, M]⟩ : Shape).rank) ∈ (dims N K M wf).rhsBatch from List.not_mem_nil),
    dif_pos (show (1 : Fin (⟨2, ![K, M]⟩ : Shape).rank) ∈ (dims N K M wf).rhsNonContracting from List.mem_singleton.mpr rfl)]
  rfl

/-- The contraction's sum, re-indexed by the contracted coordinate. -/
theorem contr_sum (l : (⟨2, ![N, K]⟩ : Shape).Idx → EReal) (r : (⟨2, ![K, M]⟩ : Shape).Idx → EReal) (i : (⟨2, ![N, M]⟩ : Shape).Idx) :
    ∑ q : (dims N K M wf).contr.Idx, l ((dims N K M wf).lhsIdx i q) * r ((dims N K M wf).rhsIdx i q)
      = ∑ k : Fin K, l (ix2 (i 0) k) * r (ix2 k (i 1)) := by
  rw [← Equiv.sum_comp (contrEquiv1 (dims N K M wf) K rfl rfl).symm]
  refine Finset.sum_congr rfl fun k _ => ?_
  have hk := contrEquiv1_symm_val (dims N K M wf) K rfl rfl k
  have el : (dims N K M wf).lhsIdx i ((contrEquiv1 (dims N K M wf) K rfl rfl).symm k) = ix2 (i 0) k := funext fun a => Fin.ext (by
    match a with
    | ⟨0, _⟩ => exact lhs_row wf _ _
    | ⟨1, _⟩ => exact (lhs_col wf _ _).trans hk)
  have er : (dims N K M wf).rhsIdx i ((contrEquiv1 (dims N K M wf) K rfl rfl).symm k) = ix2 k (i 1) := funext fun a => Fin.ext (by
    match a with
    | ⟨0, _⟩ => exact (rhs_row wf _ _).trans hk
    | ⟨1, _⟩ => exact rhs_col wf _ _)
  rw [el, er]
  rfl

/-- A product accumulated into zeros, at an entry. -/
theorem matmul_zero_apply {φ₁ φ₂ : FTy} (prec : Option ContractPrecision) (l : FVec Ideal ⟨2, ![N, K]⟩ φ₁) (r : FVec Ideal ⟨2, ![K, M]⟩ φ₂)
    (i : (⟨2, ![N, M]⟩ : Shape).Idx) :
    matmul (dims N K M wf) prec l r (constant ⟨2, ![N, M]⟩ .f32 0x00000000#32) i = ∑ k : Fin K, l (ix2 (i 0) k) * r (ix2 k (i 1)) :=
  (Ideal.matmul_constant_zero_apply (dims N K M wf) prec l r i).trans (contr_sum wf l r i)

/-- The host's product, at an entry. -/
theorem dotGeneral_apply {φ₁ φ₂ : FTy} (prec : Option ContractPrecision) (l : FVec Ideal ⟨2, ![N, K]⟩ φ₁) (r : FVec Ideal ⟨2, ![K, M]⟩ φ₂)
    (i : (⟨2, ![N, M]⟩ : Shape).Idx) :
    Host.dotGeneral (dims N K M wf) prec l r i = ∑ k : Fin K, l (ix2 (i 0) k) * r (ix2 k (i 1)) := by
  simp only [Host.dotGeneral]
  exact (Ideal.dotGeneral_apply (dims N K M wf) prec _ l r i).trans (contr_sum wf l r i)

end Matmul2

end
-- ==== Proof.KernelPay.lean ====
/-
  The kernel body's stored value at one row of its block: row `r` of the 4096 written back is the gate of row `r`
  of the staged `[mu || mv]` block, with the weights as staged. The two matrix products into a zero accumulator are
  plain sums over the contracted axis; the layout steps (the two column halves, the four-way join, the bias rows,
  dropping the unit column) are read at the row; a change of float format is the identity over the extended reals.
-/
import proofs.«418235_j66683662238131_3_alg».proof.Proof.Gen.KernelIdeal.Skeleton
import proofs.«418235_j66683662238131_3_alg».proof.Proof.Spec
import proofs.«418235_j66683662238131_3_alg».proof.Proof.LibConcat4
import proofs.«418235_j66683662238131_3_alg».proof.Proof.LibMatmul2
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx EdgeGate

/-- The left half of the staged block at `(r, k)`: column `k`. -/
theorem left_half (x0 : Vec Ideal S4096x64 .f32) (r : Fin 4096) (k : Fin 32) :
    extractStridedSlice S4096x32 ![0, 0] (shapeCast S4096x64 x0 Facts₀.shapeCasts_S4096x64_S4096x64) Facts₀.slices_S4096x64_o0_0_S4096x32 (ix2 r k)
      = x0 (ix2 r ⟨k.val, by have := k.isLt; omega⟩) := by
  rw [shapeCast_self]
  exact extractStridedSlice_apply _ x0 _ (ix2 r k) (ix2 r ⟨k.val, by have := k.isLt; omega⟩) (fun a => by
    match a with
    | ⟨0, _⟩ => show r.val = 0 + r.val; omega
    | ⟨1, _⟩ => show k.val = 0 + k.val; omega)

/-- The right half at `(r, k)`: column `32 + k`. -/
theorem right_half (x0 : Vec Ideal S4096x64 .f32) (r : Fin 4096) (k : Fin 32) :
    extractStridedSlice S4096x32 ![0, 32] (shapeCast S4096x64 x0 Facts₀.shapeCasts_S4096x64_S4096x64) Facts₀.slices_S4096x64_o0_32_S4096x32 (ix2 r k)
      = x0 (ix2 r ⟨32 + k.val, by have := k.isLt; omega⟩) := by
  rw [shapeCast_self]
  exact extractStridedSlice_apply _ x0 _ (ix2 r k) (ix2 r ⟨32 + k.val, by have := k.isLt; omega⟩) (fun a => by
    match a with
    | ⟨0, _⟩ => show r.val = 0 + r.val; omega
    | ⟨1, _⟩ => rfl)

/-- THE STORED ROW: entry `r` of the body's payload is the gate of row `r` of the staged block. -/
theorem pay_apply (x0 : Vec Ideal S4096x64 .f32) (x1 : Vec Ideal S128x64 .bf16) (x2 : Vec Ideal S1x64 .f32)
    (x3 : Vec Ideal S64x1 .bf16) (x4 : Vec Ideal S1x1 .f32) (r : Fin 4096) :
    k0_pay1 (F := Ideal) x0 x1 x2 x3 x4 (ix1 r)
      = gate (feat (fun k => x0 (ix2 r ⟨k.val, by have := k.isLt; omega⟩)) (fun k => x0 (ix2 r ⟨32 + k.val, by have := k.isLt; omega⟩)))
          (fun j n => x1 (ix2 j n)) (fun n => x2 (ix2 (0 : Fin 1) n)) (fun n => x3 (ix2 n (0 : Fin 1)))
          (x4 (ix2 (0 : Fin 1) (0 : Fin 1))) := by
  unfold k0_pay1
  refine (shapeCast_apply _ _ (ix1 r) (ix2 r (0 : Fin 1)) ?_).trans ?_
  · rw [Shape.rowMajor_val_two, Shape.rowMajor_val_one]; show r.val * 1 + 0 = r.val; omega
  unfold gate
  show min _ (max _ (Ideal.logistic (_ + _))) = _
  refine congrArg (min _) (congrArg (max _) (congrArg Ideal.logistic ?_))
  refine congrArg₂ (· + ·) ?_ ?_
  · -- the output product: the sum over the hidden units
    refine (Matmul2.matmul_zero_apply Facts₀.dot_S4096x64_S64x1_S4096x1_1_0_0_1_n_n_wf none _ _ (ix2 r (0 : Fin 1))).trans
      (Finset.sum_congr rfl fun n _ => ?_)
    refine congrArg₂ (· * ·) ?_ (congrFun (shapeCast_self x3 _) (ix2 n (0 : Fin 1)))
    -- hidden unit `n` at row `r`
    unfold EdgeGate.hidden
    show max (_ + _) _ = _
    refine congrArg₂ max (congrArg₂ (· + ·) ?_ ?_) rfl
    · -- the feature product: the sum over the features
      refine (Matmul2.matmul_zero_apply Facts₀.dot_S4096x128_S128x64_S4096x64_1_0_0_1_n_n_wf none _ _ (ix2 r n)).trans
        (Finset.sum_congr rfl fun j _ => ?_)
      refine congrArg₂ (· * ·) ?_ (congrFun (shapeCast_self x1 _) (ix2 j n))
      -- feature `j` at row `r`: the piece of the join that holds column `j`
      refine (Concat4.concat4_apply _ _ _ _ Facts₀.concatenates_S4096x32_S4096x32_S4096x32_S4096x32_S4096x128_d1 r j).trans ?_
      unfold feat
      split
      · exact left_half x0 r _
      · split
        · exact right_half x0 r _
        · split
          · show max (_ - _) (-(_ - _)) = _
            rw [left_half, right_half]
          · show _ * _ = _
            rw [left_half, right_half]
    · -- the first bias, a row broadcast down the block
      refine (broadcastTo_apply _ _ (ix2 r n) (ix2 (0 : Fin 1) n) (fun a => ?_)).trans (congrFun (shapeCast_self x2 _) _)
      match a with
      | ⟨0, _⟩ => rfl
      | ⟨1, _⟩ => rfl
  · -- the second bias, one number broadcast down the block
    refine (broadcastTo_apply _ _ (ix2 r (0 : Fin 1)) (ix2 (0 : Fin 1) (0 : Fin 1)) (fun a => ?_)).trans (congrFun (shapeCast_self x4 _) _)
    match a with
    | ⟨0, _⟩ => rfl
    | ⟨1, _⟩ => rfl

end Cert.KernelIdeal.Pay

end
-- ==== Proof.KernelValue.lean ====
/-
  The kernel's output array after the region, as one function of the arrays the region finds.

  Grid point `t` stages rows `4096 t … 4096 t + 4095` of the padded `[mu || mv]` array and the four weight arrays
  whole, and writes back entries `4096 t … 4096 t + 4095` of the padded result: entry `e` is the gate of row `e`.
  The 391 blocks tile the padded result, so after the last point the whole array is that function.
-/
import proofs.«418235_j66683662238131_3_alg».proof.Proof.Gen.KernelIdeal.Frame
import proofs.«418235_j66683662238131_3_alg».proof.Proof.KernelPay
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx EdgeGate
open Idealize.ShloMosaic.Pipeline (Dat)

variable (m : (ℓ : Loc nD τ sig) → Buf (Elt Ideal) ℓ) (ρ : Dev nD → PrngReg)

/-! ## The arrays the region finds, at their literal types -/

abbrev f0arr (c : Dev nD) : Vec Ideal S1601536x64 .f32 := V m c main_v21
abbrev w1arr (c : Dev nD) : Vec Ideal S128x64 .bf16 := V m c main_v22
abbrev b1arr (c : Dev nD) : Vec Ideal S1x64 .f32 := V m c main_v24
abbrev w2arr (c : Dev nD) : Vec Ideal S64x1 .bf16 := V m c main_v23
abbrev b2arr (c : Dev nD) : Vec Ideal S1x1 .f32 := V m c main_v25

/-- The gate of row `e` of a padded `[mu || mv]` array, with the weights as the kernel stages them. -/
def rowGate (f0 : Vec Ideal S1601536x64 .f32) (w1 : Vec Ideal S128x64 .bf16) (b1 : Vec Ideal S1x64 .f32)
    (w2 : Vec Ideal S64x1 .bf16) (b2 : Vec Ideal S1x1 .f32) (e : Fin 1601536) : EReal :=
  gate (feat (fun k => f0 (ix2 e ⟨k.val, by have := k.isLt; omega⟩)) (fun k => f0 (ix2 e ⟨32 + k.val, by have := k.isLt; omega⟩)))
    (fun j n => w1 (ix2 j n)) (fun n => b1 (ix2 (0 : Fin 1) n)) (fun n => w2 (ix2 n (0 : Fin 1)))
    (b2 (ix2 (0 : Fin 1) (0 : Fin 1)))

/-- The padded result: every entry the gate of its row. -/
def padded (c : Dev nD) : Vec Ideal S1601536 .f32 :=
  fun i => rowGate (f0arr m c) (w1arr m c) (b1arr m c) (w2arr m c) (b2arr m c) ⟨(i 0).val, (i 0).isLt⟩

/-! ## The grid -/

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the `[mu || mv]` window and the result window sit at block `t`, the four
    weight windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

theorem lt_grid (t : Fin cfg0.N) : t.val < 391 := by
  have h : t.val < cfg0.N := t.isLt
  have e : cfg0.N = 391 := N_0
  omega

/-! ## The staged blocks -/

/-- Row `r` of the `[mu || mv]` block at point `t` is row `4096 t + r` of the array. -/
theorem iblk0_apply (c : Dev nD) (t : Fin cfg0.N) (r : Fin 4096) (q : Fin 64) :
    (iblk m c 0 t : Vec Ideal S4096x64 .f32) (ix2 r q)
      = f0arr m c (ix2 ⟨4096 * t.val + r.val, by have := lt_grid t; have := r.isLt; omega⟩ q) := by
  obtain ⟨e0, e1, -⟩ := idx_facts t
  unfold iblk
  rw [View.read_apply]
  show V m c main_v21 _ = V m c main_v21 _
  congr 1
  funext a
  apply Fin.ext
  match a with
  | ⟨0, _⟩ => show win0_0.index t 0 * 4096 + 1 * r.val = 4096 * t.val + r.val; rw [e0]; omega
  | ⟨1, _⟩ => show win0_0.index t 1 * 64 + 1 * q.val = q.val; rw [e1]; omega

/-- The first weight matrix is staged whole at every point. -/
theorem iblk1_eq (c : Dev nD) (t : Fin cfg0.N) : (iblk m c 1 t : Vec Ideal S128x64 .bf16) = w1arr m c := by
  obtain ⟨-, -, e0, e1, -⟩ := idx_facts t
  funext y
  unfold iblk
  rw [View.read_apply]
  show V m c main_v22 _ = V m c main_v22 y
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- So is the first bias row, -/
theorem iblk2_eq (c : Dev nD) (t : Fin cfg0.N) : (iblk m c 2 t : Vec Ideal S1x64 .f32) = b1arr m c := by
  obtain ⟨-, -, -, -, e0, e1, -⟩ := idx_facts t
  funext y
  unfold iblk
  rw [View.read_apply]
  show V m c main_v24 _ = V m c main_v24 y
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

/-- the second weight column, -/
theorem iblk3_eq (c : Dev nD) (t : Fin cfg0.N) : (iblk m c 3 t : Vec Ideal S64x1 .bf16) = w2arr m c := by
  obtain ⟨-, -, -, -, -, -, e0, e1, -⟩ := idx_facts t
  funext y
  unfold iblk
  rw [View.read_apply]
  show V m c main_v23 _ = V m c main_v23 y
  congr 1
  funext a
  apply Fin.ext
  match a with
  | ⟨0, _⟩ => show win0_3.index t 0 * 64 + 1 * (y 0).val = (y 0).val; rw [e0]; omega
  | ⟨1, _⟩ => show win0_3.index t 1 * 1 + 1 * (y 1).val = (y 1).val; rw [e1]; omega

/-- and the second bias. -/
theorem iblk4_eq (c : Dev nD) (t : Fin cfg0.N) : (iblk m c 4 t : Vec Ideal S1x1 .f32) = b2arr m c := by
  obtain ⟨-, -, -, -, -, -, -, -, e0, e1, -⟩ := idx_facts t
  funext y
  unfold iblk
  rw [View.read_apply]
  show V m c main_v25 _ = V m c main_v25 y
  congr 1
  funext a
  apply Fin.ext
  match a with
  | ⟨0, _⟩ => show win0_4.index t 0 * 1 + 1 * (y 0).val = (y 0).val; rw [e0]; omega
  | ⟨1, _⟩ => show win0_4.index t 1 * 1 + 1 * (y 1).val = (y 1).val; rw [e1]; omega

/-! ## What a point writes back, and the array at the end -/

/-- Point `t` writes back block `t` of the padded result. -/
theorem flushed_eq (c : Dev nD) (t : Fin cfg0.N) :
    (dats m 0 c).flushed 5 t = ((cfg0.win 5).blk t).view.read (Elt Ideal) (padded m c) := by
  obtain ⟨-, -, -, -, -, -, -, -, -, -, e5⟩ := idx_facts t
  show (cfg0.win 5).cut (grid0.coords t) ((dats m 0 c).after 5 t) = _
  rw [after0_5]
  unfold out0_5
  rw [View.canon_unit_zero hz1]
  simp only [View.ld_unit_zero (S := S4096x64) hz2, View.ld_unit_zero (S := S128x64) hz2, View.ld_unit_zero (S := S1x64) hz2,
    View.ld_unit_zero (S := S64x1) hz2, View.ld_unit_zero (S := S1x1) hz2]
  funext y
  obtain ⟨r, rfl⟩ : ∃ r : Fin 4096, y = ix1 r := ⟨y 0, eq_ix1 y⟩
  have hemb : ((cfg0.win 5).blk t).view.emb (ix1 r)
      = ix1 (⟨4096 * t.val + r.val, by have := lt_grid t; have := r.isLt; omega⟩ : Fin 1601536) := by
    funext a
    apply Fin.ext
    match a with
    | ⟨0, _⟩ => show win0_5.index t 0 * 4096 + 1 * r.val = 4096 * t.val + r.val; rw [e5]; omega
  show k0_pay1 (iblk m c 0 t) (iblk m c 1 t) (iblk m c 2 t) (iblk m c 3 t) (iblk m c 4 t) (ix1 r)
    = padded m c (((cfg0.win 5).blk t).view.emb (ix1 r))
  rw [hemb]
  refine (Pay.pay_apply (iblk m c 0 t) (iblk m c 1 t) (iblk m c 2 t) (iblk m c 3 t) (iblk m c 4 t) r).trans ?_
  rw [iblk1_eq, iblk2_eq, iblk3_eq, iblk4_eq]
  show _ = rowGate (f0arr m c) (w1arr m c) (b1arr m c) (w2arr m c) (b2arr m c) _
  unfold rowGate
  congr 2
  · funext k; exact iblk0_apply m c t r _
  · funext k; exact iblk0_apply m c t r _

/-- An entry of the padded result lies in point `t`'s block iff it is one of the 4096 entries from `4096 t` on. -/
theorem mem_blk (t : Fin cfg0.N) (i : S1601536.Idx) :
    i ∈ ((cfg0.win 5).blk t).view.set
      ↔ ∀ a : Fin 1, win0_5.index t a * S4096.size a ≤ (i a).val ∧ (i a).val < win0_5.index t a * S4096.size a + S4096.size a := by
  show i ∈ ((View.whole main_v26).slice (win0_5.rect t)).set ↔ _
  rw [View.set_slice_whole, Rect.mem_set_unit]
  exact Iff.rfl

/-- The blocks tile the padded result: entry `i` is in the block of point `i / 4096`. -/
theorem covered (i : S1601536.Idx) : ∃ t : Fin cfg0.N, (cfg0.win 5).flush t = true ∧ i ∈ ((cfg0.win 5).blk t).view.set := by
  have hi : (i 0).val < 1601536 := (i 0).isLt
  have hN : cfg0.N = 391 := N_0
  refine ⟨⟨(i 0).val / 4096, by rw [hN]; omega⟩, flush0_5 _, ?_⟩
  rw [mem_blk]
  intro a
  obtain ⟨-, -, -, -, -, -, -, -, -, -, e5⟩ := idx_facts ⟨(i 0).val / 4096, by rw [hN]; omega⟩
  match a with
  | ⟨0, _⟩ =>
    show win0_5.index _ 0 * 4096 ≤ (i 0).val ∧ (i 0).val < win0_5.index _ 0 * 4096 + 4096
    rw [e5]
    show (i 0).val / 4096 * 4096 ≤ (i 0).val ∧ (i 0).val < (i 0).val / 4096 * 4096 + 4096
    omega

/-- THE ARRAY after the last point: the padded result. -/
theorem final (c : Dev nD) : (dats m 0 c).arrAt 5 cfg0.N = padded m c :=
  (dats m 0 c).arrAt_eq_of_cover 5 (padded m c) (fun t _ => flushed_eq m c t) (covered)

end Cert.KernelIdeal.KValue

end
-- ==== Proof.HostSide.lean ====
/-
  What the host lines before the kernel leave in the arrays the kernel stages.

  From the edge list the host takes the two rows of endpoints, clamps each into `[0, 99999]`, normalises a negative
  index by adding 100000 (a no-op after the clamp), gathers the two sets of feature rows, joins them side by side into
  `[mu || mv]` and pads 1536 zero rows at the bottom. The weights are handed over unchanged (a change of float format
  is the identity over the extended reals) and the two bias vectors as a row and as a `1 × 1` matrix.
-/
import proofs.«418235_j66683662238131_3_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-! ## The host lines as functions of the arguments -/

/-- Row `k` of the edge list as a vector: the source endpoints (`k = 0`) … -/
def srcRow (a1 : IVec S2x1600000 32) : IVec S1600000 32 :=
  shapeCast S1600000 (extractStridedSlice S1x1600000 ![0, 0] a1 Facts₀.slices_S2x1600000_S1x1600000_0_0) Facts₀.shapeCasts_S1x1600000_S1600000
/-- … and the destination endpoints (`k = 1`). -/
def dstRow (a1 : IVec S2x1600000 32) : IVec S1600000 32 :=
  shapeCast S1600000 (extractStridedSlice S1x1600000 ![1, 0] a1 Facts₀.slices_S2x1600000_S1x1600000_1_0) Facts₀.shapeCasts_S1x1600000_S1600000

/-- The clamp of every index into `[0, 99999]`. -/
def clipRow (v : IVec S1600000 32) : IVec S1600000 32 :=
  minsi (broadcastInDim S1600000 ![] Facts₀.bcast_S_S1600000 (constantI S_ 32 99999#32))
    (maxsi (broadcastInDim S1600000 ![] Facts₀.bcast_S_S1600000 (constantI S_ 32 0#32)) v)

/-- A negative index counted from the end, and the vector stood up as a column of start indices. -/
def wrapCol (v : IVec S1600000 32) : IVec S1600000x1 32 :=
  broadcastInDim S1600000x1 ![0] Facts₀.bcast_S1600000_S1600000x1_0
    (select (cmpi .slt v (broadcastInDim S1600000 ![] Facts₀.bcast_S_S1600000 (constantI S_ 32 0#32)))
      (addi v (broadcastInDim S1600000 ![] Facts₀.bcast_S_S1600000 (constantI S_ 32 100000#32))) v)

/-- The feature rows a column of start indices names. -/
def rows (a0 : FVec Ideal S100000x32 .f32) (col : IVec S1600000x1 32) : FVec Ideal S1600000x32 .f32 :=
  Host.gather gather_S100000x32_S1600000x1_S1600000x32_1_0_n_n_0_1_132 a0 col

/-- Two row sets side by side, with 1536 rows of zeros below. -/
def joinPad (mu mv : FVec Ideal S1600000x32 .f32) : FVec Ideal S1601536x64 .f32 :=
  pad S1601536x64 ![0, 0] ![1536, 0] ![0, 0]
    (concatenate S1600000x64 1 [⟨S1600000x32, mu⟩, ⟨S1600000x32, mv⟩] Facts₀.concatenates_S1600000x32_S1600000x32_S1600000x64_d1)
    (sitofp (F := Ideal) .f32 (constantI S_ 32 0#32)) Facts₀.pads_S1600000x64_S1601536x64_015360_000 Facts₀.h_S_

/-! ## The arrays the region finds -/

variable (m : (ℓ : Loc nD τ sig) → Buf (Elt Ideal) ℓ)

set_option maxRecDepth 8192 in
set_option maxHeartbeats 40000000 in
/-- The staged `[mu || mv]` array. -/
theorem V_v21 (c : Dev nD) :
    (V m c main_v21 : Vec Ideal S1601536x64 .f32)
      = joinPad (rows (m ((c : Thread nD τ).loc main_arg0)) (wrapCol (clipRow (srcRow (m ((c : Thread nD τ).loc main_arg1))))))
          (rows (m ((c : Thread nD τ).loc main_arg0)) (wrapCol (clipRow (dstRow (m ((c : Thread nD τ).loc main_arg1)))))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxRecDepth 8192 in
set_option maxHeartbeats 4000000 in
/-- The first weight matrix, -/
theorem V_v22 (c : Dev nD) : (V m c main_v22 : S128x64.Idx → EReal) = m ((c : Thread nD τ).loc main_arg2) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxRecDepth 8192 in
set_option maxHeartbeats 4000000 in
/-- the second weight column, -/
theorem V_v23 (c : Dev nD) : (V m c main_v23 : S64x1.Idx → EReal) = m ((c : Thread nD τ).loc main_arg4) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxRecDepth 8192 in
set_option maxHeartbeats 4000000 in
/-- the first bias as a row, -/
theorem V_v24 (c : Dev nD) :
    (V m c main_v24 : S1x64.Idx → EReal) = shapeCast S1x64 (m ((c : Thread nD τ).loc main_arg3)) Facts₀.shapeCasts_S64_S1x64 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxRecDepth 8192 in
set_option maxHeartbeats 4000000 in
/-- the second bias as a `1 × 1` matrix. -/
theorem V_v25 (c : Dev nD) :
    (V m c main_v25 : S1x1.Idx → EReal) = shapeCast S1x1 (m ((c : Thread nD τ).loc main_arg5)) Facts₀.shapeCasts_S1_S1x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## The joined and padded array at a row of the edge list -/

/-- Above the padding, the left half of row `e` is row `e` of the first row set … -/
theorem joinPad_left (mu mv : FVec Ideal S1600000x32 .f32) (e : Fin 1600000) (k : Fin 32) :
    joinPad mu mv (ix2 (⟨e.val, by have := e.isLt; omega⟩ : Fin 1601536) (⟨k.val, by have := k.isLt; omega⟩ : Fin 64)) = mu (ix2 e k) := by
  unfold joinPad
  refine (pad_apply_of_inside _ _ _ _ _ _ _ _ (ix2 e (⟨k.val, by have := k.isLt; omega⟩ : Fin 64)) (fun a => ?_)).trans ?_
  · match a with
    | ⟨0, _⟩ => show e.val = 0 + e.val * (0 + 1); omega
    | ⟨1, _⟩ => show k.val = 0 + k.val * (0 + 1); omega
  · exact concatenate_pair_apply_left (t := S1600000x64) 1 mu mv _ (ix2 e (⟨k.val, by have := k.isLt; omega⟩ : Fin 64)) rfl (ix2 e k) (fun b => by
      match b with
      | ⟨0, _⟩ => rfl
      | ⟨1, _⟩ => rfl)

/-- … and the right half is row `e` of the second. -/
theorem joinPad_right (mu mv : FVec Ideal S1600000x32 .f32) (e : Fin 1600000) (k : Fin 32) :
    joinPad mu mv (ix2 (⟨e.val, by have := e.isLt; omega⟩ : Fin 1601536) (⟨32 + k.val, by have := k.isLt; omega⟩ : Fin 64)) = mv (ix2 e k) := by
  unfold joinPad
  refine (pad_apply_of_inside _ _ _ _ _ _ _ _ (ix2 e (⟨32 + k.val, by have := k.isLt; omega⟩ : Fin 64)) (fun a => ?_)).trans ?_
  · match a with
    | ⟨0, _⟩ => show e.val = 0 + e.val * (0 + 1); omega
    | ⟨1, _⟩ => show 32 + k.val = 0 + (32 + k.val) * (0 + 1); omega
  · exact concatenate_pair_apply_right (t := S1600000x64) 1 mu mv _ (ix2 e (⟨32 + k.val, by have := k.isLt; omega⟩ : Fin 64)) rfl rfl (ix2 e k) (fun b hb => by
      match b with
      | ⟨0, _⟩ => rfl
      | ⟨1, _⟩ => exact absurd rfl hb) (by show k.val + 32 = 32 + k.val; omega)

end Cert.KernelIdeal.HostSide

end
-- ==== Proof.KernelRun.lean ====
/-
  The kernel program's run, read: after the host slices the padded result back to the 1600000 edges, entry `e` of the
  result is the gate of the rows gathered for edge `e`, with the weights as given.
-/
import proofs.«418235_j66683662238131_3_alg».proof.Proof.KernelValue
import proofs.«418235_j66683662238131_3_alg».proof.Proof.HostSide

noncomputable section

namespace Cert.KernelIdeal.KRun

open Cert.KernelIdeal Cert.KernelIdeal.Gen Idealize.ShloMosaic Idealize.ShloMosaic.TcCoe Idealize.SL.Sem
open Idealize.ShloMosaic.StableHlo Idealize.ShloMosaic.ValueIdx EdgeGate
open Cert.KernelIdeal.KValue Cert.KernelIdeal.HostSide

/-- The kernel program's result as a function of its arguments. -/
def result (a0 : FVec Ideal S100000x32 .f32) (a1 : IVec S2x1600000 32) (a2 : FVec Ideal S128x64 .f32) (a3 : FVec Ideal S64 .f32)
    (a4 : FVec Ideal S64x1 .f32) (a5 : FVec Ideal S1 .f32) : FVec Ideal S1600000 .f32 :=
  gates (rows a0 (wrapCol (clipRow (srcRow a1)))) (rows a0 (wrapCol (clipRow (dstRow a1)))) a2 a3 a4 a5

/-- A vector stood up as a one-row matrix, read in that row. -/
theorem row_apply (a3 : FVec Ideal S64 .f32) (n : Fin 64) :
    shapeCast S1x64 a3 Facts₀.shapeCasts_S64_S1x64 (ix2 (0 : Fin 1) n) = a3 (ix1 n) :=
  shapeCast_apply a3 _ (ix2 (0 : Fin 1) n) (ix1 n)
    (by rw [Shape.rowMajor_val_two, Shape.rowMajor_val_one]; show n.val = 0 * 64 + n.val; omega)

/-- A one-entry vector as a `1 × 1` matrix, read at its entry. -/
theorem one_apply (a5 : FVec Ideal S1 .f32) :
    shapeCast S1x1 a5 Facts₀.shapeCasts_S1_S1x1 (ix2 (0 : Fin 1) (0 : Fin 1)) = a5 (ix1 (0 : Fin 1)) :=
  shapeCast_apply a5 _ (ix2 (0 : Fin 1) (0 : Fin 1)) (ix1 (0 : Fin 1))
    (by rw [Shape.rowMajor_val_two, Shape.rowMajor_val_one]; rfl)

variable (m : (ℓ : Loc nD τ sig) → Buf (Elt Ideal) ℓ) (ρ : Dev nD → PrngReg)

/-- What the host's last line leaves in the result buffer: the first 1600000 entries of the padded result, which are
    the gates of the edges. -/
theorem tail_v27 (c : Dev nD) :
    Pipeline.afterTail₀ cfgs (dats m) 0 (V0 m) [hostOps1] c main_v27
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v27) = _
  after_results
  have hA := (Pipeline.withArrays_arr spec0 launch0.win.arr_inj c (V0 m c) (fun w => (dats m 0 c).arrAt w cfg0.N) 5).trans (final m c)
  show extractStridedSlice S1600000 ![0] (Pipeline.withArrays spec0 c (V0 m c) (fun w => (dats m 0 c).arrAt w cfg0.N) (Proc.devRef .tc main_v26))
    Facts₀.slices_S1601536_S1600000_0 = _
  rw [hA]
  funext i
  obtain ⟨e, rfl⟩ : ∃ e : Fin 1600000, i = ix1 e := ⟨i 0, eq_ix1 i⟩
  show rowGate (f0arr m c) (w1arr m c) (b1arr m c) (w2arr m c) (b2arr m c) ⟨0 + e.val, _⟩ = _
  have he : (⟨0 + e.val, by have := e.isLt; omega⟩ : Fin 1601536) = ⟨e.val, by have := e.isLt; omega⟩ := Fin.ext (Nat.zero_add _)
  rw [he]
  unfold rowGate result gates
  rw [show f0arr m c = _ from V_v21 m c, show (w1arr m c : S128x64.Idx → EReal) = _ from V_v22 m c,
    show (b1arr m c : S1x64.Idx → EReal) = _ from V_v24 m c, show (w2arr m c : S64x1.Idx → EReal) = _ from V_v23 m c,
    show (b2arr m c : S1x1.Idx → EReal) = _ from V_v25 m c]
  simp only [joinPad_left, joinPad_right]
  refine (congrArg (fun b1 => gate _ _ b1 _ _) (funext fun n => row_apply (m ((c : Thread nD τ).loc main_arg3)) n)).trans ?_
  exact congrArg (fun b2 => gate _ _ _ _ b2) (one_apply (m ((c : Thread nD τ).loc main_arg5)))

/-- THE RUN: every weakly fair execution ends with the result buffer at `result` of the arguments and the arguments
    as they were. -/
theorem run : θ_run defs (onTc (τ := τ) (main (F := Ideal))) ⟨m, fun _ => 0, ρ⟩ fun r => ∀ c : Dev nD,
      r.2.mem ((c.tc : Thread nD τ).loc main_v27)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v27 (Pipeline.mem_restRefs_of main_v27 (by decide) (by decide))).trans (tail_v27 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c)⟩)
    (run_main m ρ)

end Cert.KernelIdeal.KRun

end
-- ==== Proof.IndexRange.lean ====
/-
  What the precondition says of the edge list: every entry of `edge_index` is a row number of the feature matrix,
  `0 ≤ idx < 100000` read signed. For such a word the kernel's clamp into `[0, 99999]` is the identity, so both
  programs gather the same rows.
-/
import proofs.«418235_j66683662238131_3_alg».proof.Pre_finite_inputs
import proofs.«418235_j66683662238131_3_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace EdgeGate.IndexRange

open Idealize.ShloMosaic Idealize.ShloMosaic.ValueIdx Cert.Pre_finite_inputs Cert.Pre_finite_inputs.Gen

instance : Subsingleton S_.Idx := ⟨fun a b => funext fun d => d.elim0⟩

/-- The last conjunct of the precondition, read back entry by entry: each index word is at least 0 and below
    100000 as a signed number. -/
theorem range_of_pre {F : FTy → Type} [FloatOps F] (a0 : FVec F S100000x32 .f32) (a1 : IVec S2x1600000 32) (a2 : FVec F S128x64 .f32)
    (a3 : FVec F S64 .f32) (a4 : FVec F S64x1 .f32) (a5 : FVec F S1 .f32)
    (h : fn (F := F) a0 a1 a2 a3 a4 a5 = fun _ => 1#1) (i : S2x1600000.Idx) :
    (0 : Int) ≤ (a1 i).toInt ∧ (a1 i).toInt < 100000 := by
  have h0 := congrFun h ix0
  dsimp only [fn, fn_part1] at h0
  obtain ⟨-, h29⟩ := IntOp.andi_eq_one.1 h0
  have hi := Host.reduce_andi_all _ _ _ _ ix0 h29 i
  obtain ⟨hge, hlt⟩ := IntOp.andi_eq_one.1 hi
  have hge' := IntOp.cmpi_sge.1 hge
  have hlt' := IntOp.cmpi_slt.1 hlt
  have e0 : (0#32 : BitVec 32).toInt = 0 := by decide
  have e1 : (100000#32 : BitVec 32).toInt = 100000 := by decide
  refine ⟨?_, ?_⟩
  · rw [← e0]; exact hge'
  · rw [← e1]; exact hlt'

/-- A row number is its own clamp into `[0, 99999]`. -/
theorem clip_self (w : BitVec 32) (h0 : (0 : Int) ≤ w.toInt) (h1 : w.toInt < 100000) :
    IntOp.minsi 99999#32 (IntOp.maxsi 0#32 w) = w := by
  have e0 : (0#32 : BitVec 32).toInt = 0 := by decide
  have e9 : (99999#32 : BitVec 32).toInt = 99999 := by decide
  have hmax : IntOp.maxsi 0#32 w = w := by
    unfold IntOp.maxsi
    exact if_neg (by rw [BitVec.slt_iff_toInt_lt, e0]; omega)
  rw [hmax]
  unfold IntOp.minsi
  exact if_neg (by rw [BitVec.slt_iff_toInt_lt, e9]; omega)

end EdgeGate.IndexRange

end
-- ==== Proof.lean ====
/-
  The edge gate of a message-passing layer: for every edge, gather the two endpoint feature rows, form
  `[mu, mv, |mu - mv|, mu * mv]`, apply a two-layer perceptron and clip the logistic of its score to `[0, 1]`.

  The kernel program gathers on the host (after clamping every index into range), pads the joined rows to a whole
  number of 4096-row blocks, runs the perceptron block by block and slices the padding off; the reference runs the same
  perceptron on whole arrays. Over the extended reals a change of float format is the identity, a matrix product into a
  zero accumulator is the plain sum the host's product is, and the kernel's one logistic operation is the reference's
  `1 / (1 + exp (-s))`. The two programs then differ only in the clamp, which is the identity on the indices the
  precondition admits (`0 ≤ idx < 100000`): both gather the same rows, and every edge's gate is one function of them.

  The three frames are the generated ones (the reference's is its generated run with the result dropped); the ideal
  pass rewrote nothing, so `preserves` is trivial.
-/
import proofs.«418235_j66683662238131_3_alg».proof.Defs
import proofs.«418235_j66683662238131_3_alg».proof.Proof.Gen.Kernel
import proofs.«418235_j66683662238131_3_alg».proof.Proof.Gen.Kernel.Skeleton
import proofs.«418235_j66683662238131_3_alg».proof.Proof.Gen.Kernel.Launch
import proofs.«418235_j66683662238131_3_alg».proof.Proof.Gen.Kernel.Points
import proofs.«418235_j66683662238131_3_alg».proof.Proof.Gen.Kernel.Frame
import proofs.«418235_j66683662238131_3_alg».proof.Proof.Gen.KernelIdeal
import proofs.«418235_j66683662238131_3_alg».proof.Proof.Gen.KernelIdeal.Skeleton
import proofs.«418235_j66683662238131_3_alg».proof.Proof.Gen.KernelIdeal.Launch
import proofs.«418235_j66683662238131_3_alg».proof.Proof.Gen.KernelIdeal.Points
import proofs.«418235_j66683662238131_3_alg».proof.Proof.Gen.KernelIdeal.Frame
import proofs.«418235_j66683662238131_3_alg».proof.Proof.Gen.ReferenceIdeal
import proofs.«418235_j66683662238131_3_alg».proof.Proof.Gen.ReferenceIdeal.Run
import proofs.«418235_j66683662238131_3_alg».proof.Proof.Gen.ReferenceIdeal.Read
import proofs.«418235_j66683662238131_3_alg».proof.Proof.Gen.Pre_finite_inputs
import proofs.«418235_j66683662238131_3_alg».proof.Proof.RefValue
import proofs.«418235_j66683662238131_3_alg».proof.Proof.KernelRun
import proofs.«418235_j66683662238131_3_alg».proof.Proof.IndexRange
import Idealize.ShloMosaic.Adequacy
import Idealize.ShloMosaic.Init

noncomputable section

namespace Cert.Proof

open Idealize.ShloMosaic Idealize.SL.Sem
open Cert.KernelIdeal.HostSide

/-! ## The clamp is the identity on row numbers -/

/-- On an edge list whose entries are all row numbers the clamp leaves the source endpoints as they are … -/
theorem clip_src (a1 : IVec Cert.KernelIdeal.S2x1600000 32) (hr : ∀ i, (0 : Int) ≤ (a1 i).toInt ∧ (a1 i).toInt < 100000) :
    clipRow (srcRow a1) = srcRow a1 := by
  funext i
  obtain ⟨k, hk⟩ : ∃ k, srcRow a1 i = a1 k := ⟨_, rfl⟩
  show IntOp.minsi 99999#32 (IntOp.maxsi 0#32 (srcRow a1 i)) = srcRow a1 i
  rw [hk]
  exact EdgeGate.IndexRange.clip_self _ (hr k).1 (hr k).2

/-- … and the destination endpoints. -/
theorem clip_dst (a1 : IVec Cert.KernelIdeal.S2x1600000 32) (hr : ∀ i, (0 : Int) ≤ (a1 i).toInt ∧ (a1 i).toInt < 100000) :
    clipRow (dstRow a1) = dstRow a1 := by
  funext i
  obtain ⟨k, hk⟩ : ∃ k, dstRow a1 i = a1 k := ⟨_, rfl⟩
  show IntOp.minsi 99999#32 (IntOp.maxsi 0#32 (dstRow a1 i)) = dstRow a1 i
  rw [hk]
  exact EdgeGate.IndexRange.clip_self _ (hr k).1 (hr k).2

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with every edge's gate: the kernel's by its run read block by block, the reference's by its run
    read stage by stage; under the precondition the kernel's clamped indices are the reference's. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  have hr := EdgeGate.IndexRange.range_of_pre _ _ _ _ _ _ (hpre c)
  rw [Cert.ReferenceIdeal.Read.val_main_v38_eq, Cert.ReferenceIdeal.RefValue.ref_eq, (hagree c).1, (hagree c).2.1, (hagree c).2.2.1,
    (hagree c).2.2.2.1, (hagree c).2.2.2.2.1, (hagree c).2.2.2.2.2]
  unfold Cert.KernelIdeal.KRun.result
  rw [clip_src _ hr, clip_dst _ hr]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
